-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x128 : Shape := ⟨2, ![1024, 128]⟩
abbrev S128 : Shape := ⟨1, ![128]⟩
abbrev S128x128 : Shape := ⟨2, ![128, 128]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8x4096x1024 .f32) (main_arg1 : FVec F S1024x128 .f32) (main_arg2 : FVec F S128 .f32) (main_arg3 : FVec F S128x128 .f32) (main_arg4 : FVec F S128 .f32) (main_arg5 : FVec F S128x128 .f32) (main_arg6 : FVec F S128 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S8x4096x1024 : Shape := ⟨3, ![8, 4096, 1024]⟩
abbrev S1024x128 : Shape := ⟨2, ![1024, 128]⟩
abbrev S128 : Shape := ⟨1, ![128]⟩
abbrev S128x128 : Shape := ⟨2, ![128, 128]⟩
abbrev S32768x1024 : Shape := ⟨2, ![32768, 1024]⟩
abbrev S1x128 : Shape := ⟨2, ![1, 128]⟩
abbrev S32768x128 : Shape := ⟨2, ![32768, 128]⟩
abbrev S2048x1024 : Shape := ⟨2, ![2048, 1024]⟩
abbrev S2048x128 : Shape := ⟨2, ![2048, 128]⟩
abbrev S2048 : Shape := ⟨1, ![2048]⟩
abbrev S2048x1 : Shape := ⟨2, ![2048, 1]⟩
abbrev S8x4096x128 : Shape := ⟨3, ![8, 4096, 128]⟩

abbrev nBuf : Space → Nat
  | .hbm => 13
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1024x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S32768x1024, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S32768x128, .f32⟩
  | .hbm, ⟨12, _⟩ => ⟨S8x4096x128, .f32⟩
  | .local _ .vmem, ⟨0, _⟩ => ⟨S2048x1024, .f32⟩
  | .local _ .vmem, ⟨1, _⟩ => ⟨S2048x1024, .f32⟩
  | .local _ .vmem, ⟨2, _⟩ => ⟨S1024x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x4096x1024_S32768x1024 : S8x4096x1024.ShapeCasts S32768x1024
  shapeCasts_S128_S1x128 : S128.ShapeCasts S1x128
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S2048x128 : S1x128.Broadcasts S2048x128
  reduces_S2048x128_S2048 : S2048x128.Reduces [1] S2048
  shapeCasts_S2048_S2048x1 : S2048.ShapeCasts S2048x1
  broadcasts_S2048x1_S2048x128 : S2048x1.Broadcasts S2048x128
  inb_S2048x128_S2048x128_0_0 : ∀ a, (![0, 0] : Fin 2 → Nat) a + S2048x128.size a ≤ S2048x128.size a
  h_S2048x128 : 0 < S2048x128.numel
  shapeCasts_S32768x128_S8x4096x128 : S32768x128.ShapeCasts S8x4096x128
  dot_S2048x1024_S1024x128_S2048x128_1_0_0_1_n_n_wf : DotDims.WF S2048x1024 S1024x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S32768x128.size a
  hwx0_7 : ∀ i : grid0.Coords, EltTy.bits .f32 = 32 ∨ (Rect.block (s := S32768x128) S2048x128.size (cc0_transform_7 i) (hinb0_7 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x128 : Shape := ⟨2, ![1024, 128]⟩
abbrev S128 : Shape := ⟨1, ![128]⟩
abbrev S128x128 : Shape := ⟨2, ![128, 128]⟩
abbrev S8x4096x128 : Shape := ⟨3, ![8, 4096, 128]⟩
abbrev S1x1x128 : Shape := ⟨3, ![1, 1, 128]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S8x4096x128, .f32⟩
  | .hbm, ⟨8, _⟩ => ⟨S1x1x128, .f32⟩
  | .hbm, ⟨9, _⟩ => ⟨S8x4096x128, .f32⟩
  | .hbm, ⟨10, _⟩ => ⟨S8x4096x128, .f32⟩
  | .hbm, ⟨11, _⟩ => ⟨S8x4096x128, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x128, .f32⟩
  | .hbm, ⟨23, _⟩ => ⟨S8x4096x128, .f32⟩
  | .hbm, ⟨24, _⟩ => ⟨S8x4096x128, .f32⟩
  | .hbm, ⟨25, _⟩ => ⟨S1x1x128, .f32⟩
  | .hbm, ⟨26, _⟩ => ⟨S8x4096x128, .f32⟩
  | .hbm, ⟨27, _⟩ => ⟨S8x4096x128, .f32⟩
  | .hbm, ⟨28, _⟩ => ⟨S8x4096x128, .f32⟩
  | .hbm, ⟨29, _⟩ => ⟨S8x4096x128, .f32⟩
  | .hbm, ⟨30, _⟩ => ⟨S_, .f32⟩
  | .hbm, ⟨31, _⟩ => ⟨S8x4096x128, .f32⟩
  | .hbm, ⟨32, _⟩ => ⟨S8x4096x128, .f32⟩
  | .hbm, ⟨33, _⟩ => ⟨S_, .f32⟩
  | .hbm, ⟨34, _⟩ => ⟨S8x4096x128, .f32⟩
  | .hbm, ⟨35, _⟩ => ⟨S8x4096x128, .f32⟩
  | .hbm, ⟨36, _⟩ => ⟨S8x4096x128, .f32⟩
  | .hbm, ⟨37, _⟩ => ⟨S8x4096x128, .f32⟩
  | .hbm, ⟨38, _⟩ => ⟨S1x1x128, .f32⟩
  | .hbm, ⟨39, _⟩ => ⟨S8x4096x128, .f32⟩
  | .hbm, ⟨40, _⟩ => ⟨S8x4096x128, .f32⟩
  | .hbm, ⟨41, _⟩ => ⟨S_, .f32⟩
  | .hbm, ⟨42, _⟩ => ⟨S8x4096x128, .f32⟩
  | .hbm, ⟨43, _⟩ => ⟨S8x4096x128, .f32⟩
  | .hbm, ⟨44, _⟩ => ⟨S8x4096x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8x4096x128_0_1_2 : S1x1x128.BroadcastsInDim S8x4096x128 (![0, 1, 2] : Fin 3 → Fin S8x4096x128.rank)
  reducesTo_S8x4096x128_S8x4096_d2 : S8x4096x128.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x128_0_1_2 : S8x4096x1.BroadcastsInDim S8x4096x128 (![0, 1, 2] : Fin 3 → Fin S8x4096x128.rank)
  bcast_S_S8x4096x128 : S_.BroadcastsInDim S8x4096x128 (![] : Fin 0 → Fin S8x4096x128.rank)
  dot_S8x4096x1024_S1024x128_S8x4096x128_2_0_01_1_n_n_wf : DotDims.WF S8x4096x1024 S1024x128 S8x4096x128 [2] [0] [0, 1] [1] [] []
  dot_S8x4096x128_S128x128_S8x4096x128_2_0_01_1_n_n_wf : DotDims.WF S8x4096x128 S128x128 S8x4096x128 [2] [0] [0, 1] [1] [] []

variable [Facts₀]

def dot_S8x4096x1024_S1024x128_S8x4096x128_2_0_01_1_n_n : DotDims S8x4096x1024 S1024x128 S8x4096x128 where
  lhsContracting := [2]
  rhsContracting := [0]
  lhsNonContracting := [0, 1]
  rhsNonContracting := [1]
  lhsBatch := []
  rhsBatch := []
  wf := dot_S8x4096x1024_S1024x128_S8x4096x128_2_0_01_1_n_n_wf
def dot_S8x4096x128_S128x128_S8x4096x128_2_0_01_1_n_n : DotDims S8x4096x128 S128x128 S8x4096x128 where
  lhsContracting := [2]
  rhsContracting := [0]
  lhsNonContracting := [0, 1]
  rhsNonContracting := [1]
  lhsBatch := []
  rhsBatch := []
  wf := dot_S8x4096x128_S128x128_S8x4096x128_2_0_01_1_n_n_wf

class Facts : Prop extends Facts₀ where

variable [Facts]
-- ==== Proof.RowSpec.lean ====
/-
  The mathematics both programs compute, one row at a time, on the extended reals.

  A row `x` of 1024 features goes through
    h0 = x · W0 + b0                      (128 features)
    h  = h0 · rsqrt (mean (h0²) + ε)      (root-mean-square normalisation over the 128 features)
    a  = logistic (h · W1 + b1) + h       (sigmoid block with its residual)
    o  = max (a · W2 + b2, 0) + a         (relu block with its residual)
  where the mean divides the sum of squares by the f32 number 128 and ε is the f32 number nearest 1e-6; both
  programs carry the same two words, so neither is evaluated here.
  Nothing below mentions a tiling: the kernel computes `mlpRow` on each row of each of its row blocks, the
  reference on each (batch, position) pair, and a row's result depends on that row alone.
-/
import Idealize.ShloMosaic.PureOps.Ideal
import Idealize.ShloMosaic.PureOps.Ideal.Laws
import Idealize.ShloMosaic.Lib.IdealHost

noncomputable section

namespace Cert.DenseMlp

open Idealize.ShloMosaic

/-- The divisor of the mean over the 128 hidden features, as the f32 word both programs divide by. -/
abbrev hiddenCount : EReal := Ideal.ofBits .f32 0x43000000#32
/-- The stabiliser added under the reciprocal square root, as the f32 word both programs add. -/
abbrev stabiliser : EReal := Ideal.ofBits .f32 0x358637BD#32

/-- One output feature of a linear layer: the row times column `j` of the weights, plus the bias. -/
def affine {K : ℕ} (x : Fin K → EReal) (W : Fin K → Fin 128 → EReal) (b : Fin 128 → EReal) (j : Fin 128) : EReal :=
  (∑ k : Fin K, x k * W k j) + b j

/-- Root-mean-square normalisation of a row of 128 features (no learnt scale). -/
def rmsNorm (h : Fin 128 → EReal) (j : Fin 128) : EReal :=
  h j * Ideal.rsqrt (Ideal.div (∑ l : Fin 128, h l * h l) hiddenCount + stabiliser)

/-- The sigmoid block: a linear layer, the logistic function, and the residual. -/
def sigmoidBlock (h : Fin 128 → EReal) (W : Fin 128 → Fin 128 → EReal) (b : Fin 128 → EReal) (j : Fin 128) : EReal :=
  Ideal.logistic (affine h W b j) + h j

/-- The relu block: a linear layer, the positive part, and the residual. -/
def reluBlock (a : Fin 128 → EReal) (W : Fin 128 → Fin 128 → EReal) (b : Fin 128 → EReal) (j : Fin 128) : EReal :=
  max (affine a W b j) 0 + a j

/-- The whole network on one row. -/
def mlpRow (x : Fin 1024 → EReal) (W0 : Fin 1024 → Fin 128 → EReal) (b0 : Fin 128 → EReal)
    (W1 : Fin 128 → Fin 128 → EReal) (b1 : Fin 128 → EReal) (W2 : Fin 128 → Fin 128 → EReal) (b2 : Fin 128 → EReal) :
    Fin 128 → EReal :=
  reluBlock (sigmoidBlock (rmsNorm (affine x W0 b0)) W1 b1) W2 b2

/-- The logistic function spelt out with the f32 word of one, as a host program expands it:
    `1 / (1 + e^(-x))` with both ones the word `0x3F800000`. -/
theorem logistic_expanded (x : EReal) :
    Ideal.div (Ideal.ofBits .f32 0x3F800000#32) (Ideal.ofBits .f32 0x3F800000#32 + Ideal.exp (-x)) = Ideal.logistic x := by
  rw [Ideal.ofBits_one_f32]
  rfl

/-- The positive part against the f32 word of zero. -/
theorem max_zero_word (x : EReal) : max x (Ideal.ofBits .f32 0x00000000#32) = max x 0 := by
  rw [Ideal.ofBits_zero_f32]

end Cert.DenseMlp

end
-- ==== Proof.KernelRow.lean ====
/-
  The kernel body's arithmetic read at one entry of its [2048, 128] output block.

  The body loads a [2048, 1024] block of rows, the three weight matrices and the three bias rows, and stores one
  [2048, 128] block. Its stored value is the skeleton's `k0_pay1 (k0_pay2 …) (k0_pay3 …) 0`. Read at entry (p, q) at
  the ideal instance, every step is either pointwise or one of four shapes:
    · a matrix-unit product into a zero accumulator, which is the sum over the contracted index of the products
      (the change of format in front of it is the identity on the extended reals);
    · the sum over the lanes of a row, kept as a [2048] vector, then given a unit column axis and broadcast back
      along the lanes (`keepdims`);
    · a [1, 128] bias row broadcast down the 2048 rows.
  So entry (p, q) is `Cert.DenseMlp.mlpRow` of row p of the block, at feature q.
-/
import proofs.«165573_j64132451664296_1_alg».proof.Proof.Gen.KernelIdeal.Skeleton
import proofs.«165573_j64132451664296_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Idealize.ShloMosaic Idealize.ShloMosaic.ValueIdx Cert.KernelIdeal Cert.DenseMlp

/-! ## The two matrix-unit products at an entry -/

/-- The [2048, 1024] × [1024, 128] product's dimension record. -/
abbrev dotIn := dot_S2048x1024_S1024x128_S2048x128_1_0_0_1_n_n
/-- The [2048, 128] × [128, 128] product's dimension record. -/
abbrev dotHid := dot_S2048x128_S128x128_S2048x128_1_0_0_1_n_n

theorem lhs_dotIn_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhs_dotIn_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_dotIn_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_dotIn_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The first product into a zero accumulator, at entry (p, q): row p of the left operand against column q of the
    right one, summed over the 1024 contracted positions. -/
theorem matmulIn_apply {φ₁ φ₂ : FTy} (l : FVec Ideal S2048x1024 φ₁) (r : FVec Ideal S1024x128 φ₂) (p : Fin 2048) (q : Fin 128) :
    matmul dot_S2048x1024_S1024x128_S2048x128_1_0_0_1_n_n none l r (constant S2048x128 .f32 0x00000000#32) (ix2 p q)
      = ∑ k : Fin 1024, l (ix2 p k) * r (ix2 k q) := by
  refine (Ideal.matmul_constant_zero_apply dot_S2048x1024_S1024x128_S2048x128_1_0_0_1_n_n none l r (ix2 p q)).trans ?_
  rw [← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 p q) ((contrEquiv1 dot_S2048x1024_S1024x128_S2048x128_1_0_0_1_n_n 1024 rfl rfl).symm k) = ix2 p k := funext fun a => Fin.ext (by
    match a with
    | ⟨0, _⟩ => exact lhs_dotIn_0 _ _
    | ⟨1, _⟩ => exact (lhs_dotIn_1 _ _).trans hk)
  have er : dot_S2048x1024_S1024x128_S2048x128_1_0_0_1_n_n.rhsIdx (ix2 p q) ((contrEquiv1 dot_S2048x1024_S1024x128_S2048x128_1_0_0_1_n_n 1024 rfl rfl).symm k) = ix2 k q := funext fun a => Fin.ext (by
    match a with
    | ⟨0, _⟩ => exact (rhs_dotIn_0 _ _).trans hk
    | ⟨1, _⟩ => exact rhs_dotIn_1 _ _)
  rw [el, er]

theorem lhs_dotHid_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_dotHid_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_dotHid_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_dotHid_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- A hidden-layer product into a zero accumulator, at entry (p, q): the sum over the 128 contracted positions. -/
theorem matmulHid_apply {φ₁ φ₂ : FTy} (l : FVec Ideal S2048x128 φ₁) (r : FVec Ideal S128x128 φ₂) (p : Fin 2048) (q : Fin 128) :
    matmul dot_S2048x128_S128x128_S2048x128_1_0_0_1_n_n none l r (constant S2048x128 .f32 0x00000000#32) (ix2 p q)
      = ∑ k : Fin 128, l (ix2 p k) * r (ix2 k q) := by
  refine (Ideal.matmul_constant_zero_apply dot_S2048x128_S128x128_S2048x128_1_0_0_1_n_n none l r (ix2 p q)).trans ?_
  rw [← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p q) ((contrEquiv1 dot_S2048x128_S128x128_S2048x128_1_0_0_1_n_n 128 rfl rfl).symm k) = ix2 p k := funext fun a => Fin.ext (by
    match a with
    | ⟨0, _⟩ => exact lhs_dotHid_0 _ _
    | ⟨1, _⟩ => exact (lhs_dotHid_1 _ _).trans hk)
  have er : dot_S2048x128_S128x128_S2048x128_1_0_0_1_n_n.rhsIdx (ix2 p q) ((contrEquiv1 dot_S2048x128_S128x128_S2048x128_1_0_0_1_n_n 128 rfl rfl).symm k) = ix2 k q := funext fun a => Fin.ext (by
    match a with
    | ⟨0, _⟩ => exact (rhs_dotHid_0 _ _).trans hk
    | ⟨1, _⟩ => exact rhs_dotHid_1 _ _)
  rw [el, er]

/-! ## The lane sum and the two `keepdims` layout steps -/

/-- Row `p` of the reduced vector with lane `k` put back is entry (p, k). -/
theorem lift_lane (h : S2048x128.Reduces [1] S2048) (p : Fin 2048) (k : Fin (S2048x128.size 1)) :
    h.lift (ix1 p) k = ix2 p (⟨k.val, k.isLt⟩ : Fin 128) := by
  funext c; apply Fin.ext
  fin_cases c <;> rfl

/-- The sum over the lanes of row `p`. -/
theorem laneSum_apply (v : FVec Ideal S2048x128 .f32) (h : S2048x128.Reduces [1] S2048) (hφ : FKind.Formats .f32)
    (hacc : (0x00000000#32 : BitVec 32) = 0x00000000#32) (p : Fin 2048) :
    multiReduction .add [1] S2048 v 0x00000000#32 h hφ hacc (ix1 p) = ∑ k : Fin 128, v (ix2 p k) := by
  refine (Ideal.multiReduction_add_single v 0x00000000#32 h hφ hacc (ix1 p)).trans ?_
  exact Finset.sum_congr rfl fun k _ => by rw [lift_lane]; rfl

/-- A [2048] vector given a unit column axis reads, at (p, u), the vector at p. -/
theorem column_apply {α : Type} (v : S2048.Idx → α) (h : S2048.ShapeCasts S2048x1) (p : Fin 2048) (u : Fin 1) :
    shapeCast S2048x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A [2048, 1] column broadcast along the 128 lanes reads, at (p, q), the column at p. -/
theorem alongLanes_apply {α : Type} (v : S2048x1.Idx → α) (h : S2048x1.Broadcasts S2048x128) (p : Fin 2048) (q : Fin 128) :
    broadcastTo S2048x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## The layers at an entry -/

/-- The logistic function of a vector, read at an entry. -/
theorem logistic_apply {s : Shape} {φ : FTy} (v : FVec Ideal s φ) (i : s.Idx) : logistic v i = Ideal.logistic (v i) := rfl

/-- The input layer on the block: product into zero, plus the bias row broadcast down the rows. -/
theorem inputLayer_apply (x : FVec Ideal S2048x1024 .f32) (w : FVec Ideal S1024x128 .f32) (b : FVec Ideal S1x128 .f32)
    (hlt : FTy.bits .bf16 < FTy.bits .f32) (hb : S1x128.Broadcasts S2048x128) (p : Fin 2048) (q : Fin 128) :
    addf (matmul dot_S2048x1024_S1024x128_S2048x128_1_0_0_1_n_n none (truncf .bf16 x hlt) (truncf .bf16 w hlt)
        (constant S2048x128 .f32 0x00000000#32)) (broadcastTo S2048x128 b hb) (ix2 p q)
      = affine (fun k => x (ix2 p k)) (fun k j => w (ix2 k j)) (fun j => b (ix2 (0 : Fin 1) j)) q := by
  show matmul dot_S2048x1024_S1024x128_S2048x128_1_0_0_1_n_n none (truncf .bf16 x hlt) (truncf .bf16 w hlt)
        (constant S2048x128 .f32 0x00000000#32) (ix2 p q) + broadcastTo S2048x128 b hb (ix2 p q) = _
  rw [matmulIn_apply, broadcastTo_1b_ab_apply]
  rfl

/-- A hidden layer on the block, likewise. -/
theorem hiddenLayer_apply (h : FVec Ideal S2048x128 .f32) (w : FVec Ideal S128x128 .f32) (b : FVec Ideal S1x128 .f32)
    (hlt : FTy.bits .bf16 < FTy.bits .f32) (hb : S1x128.Broadcasts S2048x128) (p : Fin 2048) (q : Fin 128) :
    addf (matmul dot_S2048x128_S128x128_S2048x128_1_0_0_1_n_n none (truncf .bf16 h hlt) (truncf .bf16 w hlt)
        (constant S2048x128 .f32 0x00000000#32)) (broadcastTo S2048x128 b hb) (ix2 p q)
      = affine (fun k => h (ix2 p k)) (fun k j => w (ix2 k j)) (fun j => b (ix2 (0 : Fin 1) j)) q := by
  show matmul dot_S2048x128_S128x128_S2048x128_1_0_0_1_n_n none (truncf .bf16 h hlt) (truncf .bf16 w hlt)
        (constant S2048x128 .f32 0x00000000#32) (ix2 p q) + broadcastTo S2048x128 b hb (ix2 p q) = _
  rw [matmulHid_apply, broadcastTo_1b_ab_apply]
  rfl

/-- The normalisation on the block: each row scaled by the reciprocal root of its mean square plus ε. -/
theorem normalise_apply (h : FVec Ideal S2048x128 .f32) (hr : S2048x128.Reduces [1] S2048) (hφ : FKind.Formats .f32)
    (hacc : (0x00000000#32 : BitVec 32) = 0x00000000#32) (hc : S2048.ShapeCasts S2048x1) (hb : S2048x1.Broadcasts S2048x128)
    (p : Fin 2048) (q : Fin 128) :
    mulf h (broadcastTo S2048x128 (rsqrt (addf (divf (shapeCast S2048x1 (multiReduction .add [1] S2048 (mulf h h) 0x00000000#32 hr hφ hacc) hc)
        (broadcast S2048x1 (Scalar.ofBits .f32 0x43000000#32))) (broadcast S2048x1 (Scalar.ofBits .f32 0x358637BD#32)))) hb) (ix2 p q)
      = rmsNorm (fun j => h (ix2 p j)) q := by
  show h (ix2 p q) * broadcastTo S2048x128 (rsqrt (addf (divf (shapeCast S2048x1 (multiReduction .add [1] S2048 (mulf h h) 0x00000000#32 hr hφ hacc) hc)
        (broadcast S2048x1 (Scalar.ofBits .f32 0x43000000#32))) (broadcast S2048x1 (Scalar.ofBits .f32 0x358637BD#32)))) hb (ix2 p q) = _
  rw [alongLanes_apply]
  show h (ix2 p q) * Ideal.rsqrt (Ideal.div (shapeCast S2048x1 (multiReduction .add [1] S2048 (mulf h h) 0x00000000#32 hr hφ hacc) hc (ix2 p (0 : Fin 1)))
        (Ideal.ofBits .f32 0x43000000#32) + Ideal.ofBits .f32 0x358637BD#32) = _
  rw [column_apply, laneSum_apply]
  rfl

/-! ## The stored value at an entry -/

/-- The block after the input layer, spelt as the body spells it. -/
def afterInput (x : FVec Ideal S2048x1024 .f32) (w0 : FVec Ideal S1024x128 .f32) (b0 : FVec Ideal S1x128 .f32) : FVec Ideal S2048x128 .f32 :=
  addf (matmul dot_S2048x1024_S1024x128_S2048x128_1_0_0_1_n_n none (truncf .bf16 x Gen.bitsLt_bf16_f32) (truncf .bf16 w0 Gen.bitsLt_bf16_f32)
    (constant S2048x128 .f32 0x00000000#32)) (broadcastTo S2048x128 b0 Gen.broadcasts_S1x128_S2048x128)

/-- A block with each row normalised, spelt as the body spells it. -/
def normalised (h : FVec Ideal S2048x128 .f32) : FVec Ideal S2048x128 .f32 :=
  mulf h (broadcastTo S2048x128 (rsqrt (addf (divf (shapeCast S2048x1 (multiReduction .add [1] S2048 (mulf h h) 0x00000000#32
      Gen.reduces_S2048x128_S2048 (.inl rfl) rfl) Gen.shapeCasts_S2048_S2048x1)
    (broadcast S2048x1 (Scalar.ofBits .f32 0x43000000#32))) (broadcast S2048x1 (Scalar.ofBits .f32 0x358637BD#32))))
    Gen.broadcasts_S2048x1_S2048x128)

/-- A block after the sigmoid block, spelt as the body spells it. -/
def afterSigmoid (h : FVec Ideal S2048x128 .f32) (w1 : FVec Ideal S128x128 .f32) (b1 : FVec Ideal S1x128 .f32) : FVec Ideal S2048x128 .f32 :=
  addf (logistic (addf (matmul dot_S2048x128_S128x128_S2048x128_1_0_0_1_n_n none (truncf .bf16 h Gen.bitsLt_bf16_f32) (truncf .bf16 w1 Gen.bitsLt_bf16_f32)
    (constant S2048x128 .f32 0x00000000#32)) (broadcastTo S2048x128 b1 Gen.broadcasts_S1x128_S2048x128))) h

theorem afterInput_apply (x : FVec Ideal S2048x1024 .f32) (w0 : FVec Ideal S1024x128 .f32) (b0 : FVec Ideal S1x128 .f32) (p : Fin 2048) (q : Fin 128) :
    afterInput x w0 b0 (ix2 p q) = affine (fun k => x (ix2 p k)) (fun k j => w0 (ix2 k j)) (fun j => b0 (ix2 (0 : Fin 1) j)) q :=
  inputLayer_apply x w0 b0 _ _ p q

theorem normalised_apply (h : FVec Ideal S2048x128 .f32) (p : Fin 2048) (q : Fin 128) :
    normalised h (ix2 p q) = rmsNorm (fun j => h (ix2 p j)) q :=
  normalise_apply h _ _ rfl _ _ p q

theorem afterSigmoid_apply (h : FVec Ideal S2048x128 .f32) (w1 : FVec Ideal S128x128 .f32) (b1 : FVec Ideal S1x128 .f32) (p : Fin 2048) (q : Fin 128) :
    afterSigmoid h w1 b1 (ix2 p q) = sigmoidBlock (fun j => h (ix2 p j)) (fun k j => w1 (ix2 k j)) (fun j => b1 (ix2 (0 : Fin 1) j)) q := by
  unfold afterSigmoid
  rw [addf_apply, logistic_apply, hiddenLayer_apply]
  rfl

/-- The skeleton's second payload is those three steps composed (its same-shape casts are the identity). -/
theorem pay2_eq (x : Vec Ideal S2048x1024 .f32) (w0 : Vec Ideal S1024x128 .f32) (w1 : Vec Ideal S128x128 .f32) (b0 b1 : Vec Ideal S1x128 .f32) :
    Gen.k0_pay2 (F := Ideal) x w0 w1 b0 b1 = afterSigmoid (normalised (afterInput x w0 b0)) w1 b1 := by
  unfold Gen.k0_pay2 afterSigmoid normalised afterInput
  simp only [shapeCast_self]

/-- The value after the sigmoid block, at entry (p, q), from the loaded blocks. -/
theorem pay2_apply (x : Vec Ideal S2048x1024 .f32) (w0 : Vec Ideal S1024x128 .f32) (w1 : Vec Ideal S128x128 .f32)
    (b0 b1 : Vec Ideal S1x128 .f32) (p : Fin 2048) (q : Fin 128) :
    Gen.k0_pay2 (F := Ideal) x w0 w1 b0 b1 (ix2 p q)
      = sigmoidBlock (rmsNorm (affine (fun k => x (ix2 p k)) (fun k j => w0 (ix2 k j)) (fun j => b0 (ix2 (0 : Fin 1) j))))
          (fun k j => w1 (ix2 k j)) (fun j => b1 (ix2 (0 : Fin 1) j)) q := by
  rw [pay2_eq, afterSigmoid_apply]
  simp only [normalised_apply, afterInput_apply]

/-- The pre-activation of the relu block, at entry (p, q), from the value after the sigmoid block. -/
theorem pay3_apply (x : Vec Ideal S2048x1024 .f32) (w0 : Vec Ideal S1024x128 .f32) (w1 w2 : Vec Ideal S128x128 .f32)
    (b0 b1 b2 : Vec Ideal S1x128 .f32) (p : Fin 2048) (q : Fin 128) :
    Gen.k0_pay3 (F := Ideal) x w0 w1 w2 b0 b1 b2 (ix2 p q)
      = affine (fun k => Gen.k0_pay2 (F := Ideal) x w0 w1 b0 b1 (ix2 p k)) (fun k j => w2 (ix2 k j)) (fun j => b2 (ix2 (0 : Fin 1) j)) q := by
  unfold Gen.k0_pay3
  simp only [shapeCast_self]
  exact hiddenLayer_apply _ _ _ _ _ p q

/-- The stored block at entry (p, q): the whole network on row p of the loaded block of rows, at feature q. -/
theorem stored_apply (x : Vec Ideal S2048x1024 .f32) (w0 : Vec Ideal S1024x128 .f32) (w1 w2 : Vec Ideal S128x128 .f32)
    (b0 b1 b2 : Vec Ideal S1x128 .f32) (p : Fin 2048) (q : Fin 128) :
    Gen.k0_pay1 (F := Ideal) (Gen.k0_pay2 x w0 w1 b0 b1) (Gen.k0_pay3 x w0 w1 w2 b0 b1 b2) (Scalar.ofBits .f32 0x00000000#32) (ix2 p q)
      = mlpRow (fun k => x (ix2 p k)) (fun k j => w0 (ix2 k j)) (fun j => b0 (ix2 (0 : Fin 1) j))
          (fun k j => w1 (ix2 k j)) (fun j => b1 (ix2 (0 : Fin 1) j)) (fun k j => w2 (ix2 k j)) (fun j => b2 (ix2 (0 : Fin 1) j)) q := by
  unfold Gen.k0_pay1
  show max (Gen.k0_pay3 (F := Ideal) x w0 w1 w2 b0 b1 b2 (ix2 p q)) (Ideal.ofBits .f32 0x00000000#32)
      + Gen.k0_pay2 (F := Ideal) x w0 w1 b0 b1 (ix2 p q) = _
  rw [max_zero_word, pay3_apply]
  simp only [pay2_apply]
  rfl

end Cert.KernelIdeal.RowValue

end
-- ==== Proof.NetSpec.lean ====
/-
  The result array both programs end with, as one function of the seven argument arrays.

  The input is [8, 4096, 1024]: 8 × 4096 rows of 1024 features. Entry (b, s, j) of the [8, 4096, 128] result is
  feature j of `mlpRow` of row (b, s); the weights are [1024, 128], [128, 128], [128, 128] and the biases [128].
  Stated over the literal shapes, so that it is the same term whichever program's shape names spell them.
-/
import proofs.«165573_j64132451664296_1_alg».proof.Proof.RowSpec
import Idealize.ShloMosaic.Lib.ValueIdx

noncomputable section

namespace Cert.DenseMlp

open Idealize.ShloMosaic Idealize.ShloMosaic.ValueIdx

/-- The network applied to every row of the input: entry (b, s, j) is feature j of the network's value on row (b, s). -/
def network (X : (⟨3, ![8, 4096, 1024]⟩ : Shape).Idx → EReal)
    (W0 : (⟨2, ![1024, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    (⟨3, ![8, 4096, 128]⟩ : Shape).Idx → EReal :=
  fun i => mlpRow (fun k => X (ix3 (i 0 : Fin 8) (i 1 : Fin 4096) k)) (fun k j => W0 (ix2 k j)) (fun j => b0 (ix1 j))
    (fun k j => W1 (ix2 k j)) (fun j => b1 (ix1 j)) (fun k j => W2 (ix2 k j)) (fun j => b2 (ix1 j)) (i 2 : Fin 128)

theorem network_apply (X : (⟨3, ![8, 4096, 1024]⟩ : Shape).Idx → EReal)
    (W0 : (⟨2, ![1024, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (b : Fin 8) (s : Fin 4096) (j : Fin 128) :
    network X W0 b0 W1 b1 W2 b2 (ix3 b s j)
      = mlpRow (fun k => X (ix3 b s k)) (fun k j => W0 (ix2 k j)) (fun j => b0 (ix1 j))
          (fun k j => W1 (ix2 k j)) (fun j => b1 (ix1 j)) (fun k j => W2 (ix2 k j)) (fun j => b2 (ix1 j)) j := rfl

end Cert.DenseMlp

end
-- ==== Proof.KernelArray.lean ====
/-
  From the kernel's blocks to its result array.

  The grid has 16 points. Point t stages rows 2048·t … 2048·t + 2047 of the [32768, 1024] array of rows (the input
  with its two leading axes merged), the three weight matrices and the three [1, 128] bias rows whole, and writes back
  rows 2048·t … 2048·t + 2047 of the [32768, 128] result. By the row lemma the written block's entry (p, q) is the
  network on row 2048·t + p at feature q, so the blocks are the restrictions of ONE array `rowsOut`, and since the 16
  row blocks tile the 32768 rows the result array ends holding `rowsOut`. The host then splits the row axis back
  into [8, 4096]: row 4096·b + s is (b, s), which gives `Cert.DenseMlp.network` of the arguments.
-/
import proofs.«165573_j64132451664296_1_alg».proof.Proof.Gen.KernelIdeal.Frame
import proofs.«165573_j64132451664296_1_alg».proof.Proof.KernelRow
import proofs.«165573_j64132451664296_1_alg».proof.Proof.NetSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.SL.Sem
open Idealize.ShloMosaic.Pipeline (Dat)
open Cert.KernelIdeal Cert.KernelIdeal.Gen Cert.DenseMlp

variable (m : (ℓ : Loc nD τ sig) → Buf (Elt Ideal) ℓ) (ρ : Dev nD → PrngReg)

/-! ## The arrays the region finds, and the array of all rows' results -/

/-- The [32768, 1024] array of rows the region finds. -/
abbrev rowsIn (c : Dev nD) : Vec Ideal S32768x1024 .f32 := V m c main_v0
abbrev w0In (c : Dev nD) : Vec Ideal S1024x128 .f32 := V m c main_arg1
abbrev b0In (c : Dev nD) : Vec Ideal S1x128 .f32 := V m c main_v1
abbrev w1In (c : Dev nD) : Vec Ideal S128x128 .f32 := V m c main_arg3
abbrev b1In (c : Dev nD) : Vec Ideal S1x128 .f32 := V m c main_v2
abbrev w2In (c : Dev nD) : Vec Ideal S128x128 .f32 := V m c main_arg5
abbrev b2In (c : Dev nD) : Vec Ideal S1x128 .f32 := V m c main_v3

/-- The network on every row of a [32768, 1024] array of rows, the biases given as [1, 128] rows. -/
def rowsOut (X : Vec Ideal S32768x1024 .f32) (W0 : Vec Ideal S1024x128 .f32) (B0 : Vec Ideal S1x128 .f32)
    (W1 : Vec Ideal S128x128 .f32) (B1 : Vec Ideal S1x128 .f32) (W2 : Vec Ideal S128x128 .f32) (B2 : Vec Ideal S1x128 .f32) :
    Vec Ideal S32768x128 .f32 :=
  fun i => mlpRow (fun k => X (ix2 (i 0 : Fin 32768) k)) (fun k j => W0 (ix2 k j)) (fun j => B0 (ix2 (0 : Fin 1) j))
    (fun k j => W1 (ix2 k j)) (fun j => B1 (ix2 (0 : Fin 1) j)) (fun k j => W2 (ix2 k j)) (fun j => B2 (ix2 (0 : Fin 1) j)) (i 1 : Fin 128)

/-! ## The blocks at a point -/

theorem origin_zero : (![0, 0] : Fin 2 → Nat) = fun _ => 0 := funext fun a => by fin_cases a <;> rfl

/-- The printed index maps over the grid: the rows' window and the result's window are at block t of the row axis,
    every other window at its one block. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of point t's block is row 2048·t + p of the array. -/
def rowAt (t : Fin cfg0.N) (p : Fin 2048) : Fin 32768 :=
  ⟨2048 * t.val + p.val, by have hN : cfg0.N = 16 := N_0; have := t.isLt; have := p.isLt; omega⟩

/-- The blocks the body loads at point t, at their literal types. -/
abbrev xBlk (c : Dev nD) (t : Fin cfg0.N) : Vec Ideal S2048x1024 .f32 := iblk m c 0 t
abbrev w0Blk (c : Dev nD) (t : Fin cfg0.N) : Vec Ideal S1024x128 .f32 := iblk m c 1 t
abbrev b0Blk (c : Dev nD) (t : Fin cfg0.N) : Vec Ideal S1x128 .f32 := iblk m c 2 t
abbrev w1Blk (c : Dev nD) (t : Fin cfg0.N) : Vec Ideal S128x128 .f32 := iblk m c 3 t
abbrev b1Blk (c : Dev nD) (t : Fin cfg0.N) : Vec Ideal S1x128 .f32 := iblk m c 4 t
abbrev w2Blk (c : Dev nD) (t : Fin cfg0.N) : Vec Ideal S128x128 .f32 := iblk m c 5 t
abbrev b2Blk (c : Dev nD) (t : Fin cfg0.N) : Vec Ideal S1x128 .f32 := iblk m c 6 t

theorem xBlk_apply (c : Dev nD) (t : Fin cfg0.N) (p : Fin 2048) (k : Fin 1024) :
    xBlk m c t (ix2 p k) = rowsIn m c (ix2 (rowAt t p) k) := by
  obtain ⟨e0, e1, -⟩ := index_maps t
  show V m c main_v0 (((cfg0.win 0).blk t).view.emb (ix2 p k)) = V m c main_v0 (ix2 (rowAt t p) k)
  refine congrArg (V m c main_v0) (funext fun a => Fin.ext ?_)
  match a with
  | ⟨0, _⟩ => show win0_0.index t (0 : Fin 2) * 2048 + 1 * p.val = 2048 * t.val + p.val; rw [e0]; omega
  | ⟨1, _⟩ => show win0_0.index t (1 : Fin 2) * 1024 + 1 * k.val = k.val; rw [e1]; omega

/-- The weights and the bias rows are staged whole at every point. -/
theorem w0Blk_apply (c : Dev nD) (t : Fin cfg0.N) (k : Fin 1024) (j : Fin 128) :
    w0Blk m c t (ix2 k j) = w0In m c (ix2 k j) := by
  obtain ⟨-, -, e0, e1, -⟩ := index_maps t
  show V m c main_arg1 (((cfg0.win 1).blk t).view.emb (ix2 k j)) = V m c main_arg1 (ix2 k j)
  refine congrArg (V m c main_arg1) (funext fun a => Fin.ext ?_)
  match a with
  | ⟨0, _⟩ => show win0_1.index t (0 : Fin 2) * 1024 + 1 * k.val = k.val; rw [e0]; omega
  | ⟨1, _⟩ => show win0_1.index t (1 : Fin 2) * 128 + 1 * j.val = j.val; rw [e1]; omega

theorem b0Blk_apply (c : Dev nD) (t : Fin cfg0.N) (k : Fin 1) (j : Fin 128) :
    b0Blk m c t (ix2 k j) = b0In m c (ix2 k j) := by
  obtain ⟨-, -, -, -, e0, e1, -⟩ := index_maps t
  show V m c main_v1 (((cfg0.win 2).blk t).view.emb (ix2 k j)) = V m c main_v1 (ix2 k j)
  refine congrArg (V m c main_v1) (funext fun a => Fin.ext ?_)
  match a with
  | ⟨0, _⟩ => show win0_2.index t (0 : Fin 2) * 1 + 1 * k.val = k.val; rw [e0]; omega
  | ⟨1, _⟩ => show win0_2.index t (1 : Fin 2) * 128 + 1 * j.val = j.val; rw [e1]; omega

theorem w1Blk_apply (c : Dev nD) (t : Fin cfg0.N) (k : Fin 128) (j : Fin 128) :
    w1Blk m c t (ix2 k j) = w1In m c (ix2 k j) := by
  obtain ⟨-, -, -, -, -, -, e0, e1, -⟩ := index_maps t
  show V m c main_arg3 (((cfg0.win 3).blk t).view.emb (ix2 k j)) = V m c main_arg3 (ix2 k j)
  refine congrArg (V m c main_arg3) (funext fun a => Fin.ext ?_)
  match a with
  | ⟨0, _⟩ => show win0_3.index t (0 : Fin 2) * 128 + 1 * k.val = k.val; rw [e0]; omega
  | ⟨1, _⟩ => show win0_3.index t (1 : Fin 2) * 128 + 1 * j.val = j.val; rw [e1]; omega

theorem b1Blk_apply (c : Dev nD) (t : Fin cfg0.N) (k : Fin 1) (j : Fin 128) :
    b1Blk m c t (ix2 k j) = b1In m c (ix2 k j) := by
  obtain ⟨-, -, -, -, -, -, -, -, e0, e1, -⟩ := index_maps t
  show V m c main_v2 (((cfg0.win 4).blk t).view.emb (ix2 k j)) = V m c main_v2 (ix2 k j)
  refine congrArg (V m c main_v2) (funext fun a => Fin.ext ?_)
  match a with
  | ⟨0, _⟩ => show win0_4.index t (0 : Fin 2) * 1 + 1 * k.val = k.val; rw [e0]; omega
  | ⟨1, _⟩ => show win0_4.index t (1 : Fin 2) * 128 + 1 * j.val = j.val; rw [e1]; omega

theorem w2Blk_apply (c : Dev nD) (t : Fin cfg0.N) (k : Fin 128) (j : Fin 128) :
    w2Blk m c t (ix2 k j) = w2In m c (ix2 k j) := by
  obtain ⟨-, -, -, -, -, -, -, -, -, -, e0, e1, -⟩ := index_maps t
  show V m c main_arg5 (((cfg0.win 5).blk t).view.emb (ix2 k j)) = V m c main_arg5 (ix2 k j)
  refine congrArg (V m c main_arg5) (funext fun a => Fin.ext ?_)
  match a with
  | ⟨0, _⟩ => show win0_5.index t (0 : Fin 2) * 128 + 1 * k.val = k.val; rw [e0]; omega
  | ⟨1, _⟩ => show win0_5.index t (1 : Fin 2) * 128 + 1 * j.val = j.val; rw [e1]; omega

theorem b2Blk_apply (c : Dev nD) (t : Fin cfg0.N) (k : Fin 1) (j : Fin 128) :
    b2Blk m c t (ix2 k j) = b2In m c (ix2 k j) := by
  obtain ⟨-, -, -, -, -, -, -, -, -, -, -, -, e0, e1, -⟩ := index_maps t
  show V m c main_v3 (((cfg0.win 6).blk t).view.emb (ix2 k j)) = V m c main_v3 (ix2 k j)
  refine congrArg (V m c main_v3) (funext fun a => Fin.ext ?_)
  match a with
  | ⟨0, _⟩ => show win0_6.index t (0 : Fin 2) * 1 + 1 * k.val = k.val; rw [e0]; omega
  | ⟨1, _⟩ => show win0_6.index t (1 : Fin 2) * 128 + 1 * j.val = j.val; rw [e1]; omega

/-- Entry (p, q) of the result's block at point t is entry (2048·t + p, q) of the result array. -/
theorem outBlk_emb (t : Fin cfg0.N) (p : Fin 2048) (q : Fin 128) :
    ((cfg0.win 7).blk t).view.emb (ix2 p q) = ix2 (rowAt t p) q := by
  obtain ⟨-, -, -, -, -, -, -, -, -, -, -, -, -, -, e0, e1⟩ := index_maps t
  refine funext fun a => Fin.ext ?_
  match a with
  | ⟨0, _⟩ => show win0_7.index t (0 : Fin 2) * 2048 + 1 * p.val = 2048 * t.val + p.val; rw [e0]; omega
  | ⟨1, _⟩ => show win0_7.index t (1 : Fin 2) * 128 + 1 * q.val = q.val; rw [e1]; omega

/-! ## What a point writes back, the cover, and the array after the run -/

/-- What point t writes back is block t of `rowsOut` of the arrays the region finds. -/
theorem flushed_eq (c : Dev nD) (t : Fin cfg0.N) :
    (dats m 0 c).flushed 7 t = ((cfg0.win 7).blk t).view.read (Elt Ideal)
      (rowsOut (rowsIn m c) (w0In m c) (b0In m c) (w1In m c) (b1In m c) (w2In m c) (b2In m c)) := by
  show (cfg0.win 7).cut (grid0.coords t) ((dats m 0 c).after 7 t) = _
  rw [after0_7]
  unfold out0_7
  rw [View.canon_unit_zero origin_zero]
  simp only [View.ld_unit_zero (S := S2048x1024) origin_zero, View.ld_unit_zero (S := S1024x128) origin_zero,
    View.ld_unit_zero (S := S128x128) origin_zero, View.ld_unit_zero (S := S1x128) origin_zero]
  funext y
  obtain ⟨p, q, rfl⟩ : ∃ (p : Fin 2048) (q : Fin 128), y = ix2 p q := ⟨y 0, y 1, eq_ix2 y⟩
  show Gen.k0_pay1 (F := Ideal) (Gen.k0_pay2 (xBlk m c t) (w0Blk m c t) (w1Blk m c t) (b0Blk m c t) (b1Blk m c t))
        (Gen.k0_pay3 (xBlk m c t) (w0Blk m c t) (w1Blk m c t) (w2Blk m c t) (b0Blk m c t) (b1Blk m c t) (b2Blk m c t))
        (Scalar.ofBits .f32 0x00000000#32) (ix2 p q)
      = rowsOut (rowsIn m c) (w0In m c) (b0In m c) (w1In m c) (b1In m c) (w2In m c) (b2In m c) (((cfg0.win 7).blk t).view.emb (ix2 p q))
  refine (RowValue.stored_apply (xBlk m c t) (w0Blk m c t) (w1Blk m c t) (w2Blk m c t) (b0Blk m c t) (b1Blk m c t) (b2Blk m c t) p q).trans ?_
  rw [outBlk_emb]
  unfold rowsOut
  simp only [xBlk_apply, w0Blk_apply, b0Blk_apply, w1Blk_apply, b1Blk_apply, w2Blk_apply, b2Blk_apply]

/-- An entry of the result array is in point t's block iff each coordinate is in the block's range on its axis. -/
theorem mem_outBlk (t : Fin cfg0.N) (i : S32768x128.Idx) :
    i ∈ ((cfg0.win 7).blk t).view.set ↔ ∀ a : Fin 2, win0_7.index t a * S2048x128.size a ≤ (i a).val
      ∧ (i a).val < win0_7.index t a * S2048x128.size a + S2048x128.size a := by
  show i ∈ ((View.whole main_v4).slice (win0_7.rect t)).set ↔ _
  rw [View.set_slice_whole, Rect.mem_set_unit]
  exact Iff.rfl

/-- Row r of the result array is in the block of point r / 2048, which is written back. -/
theorem covered (i : S32768x128.Idx) :
    ∃ t : Fin cfg0.N, (cfg0.win 7).flush t = true ∧ i ∈ ((cfg0.win 7).blk t).view.set := by
  have hN : cfg0.N = 16 := N_0
  have h0 : (i 0).val < 32768 := (i 0).isLt
  have h1 : (i 1).val < 128 := (i 1).isLt
  have ht : (i 0).val / 2048 < cfg0.N := by rw [hN]; omega
  obtain ⟨-, -, -, -, -, -, -, -, -, -, -, -, -, -, e0, e1⟩ := index_maps ⟨(i 0).val / 2048, ht⟩
  refine ⟨⟨(i 0).val / 2048, ht⟩, flush0_7 _, ?_⟩
  rw [mem_outBlk]
  intro a
  match a with
  | ⟨0, _⟩ =>
    show win0_7.index ⟨(i 0).val / 2048, ht⟩ (0 : Fin 2) * 2048 ≤ (i 0).val
      ∧ (i 0).val < win0_7.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_7.index ⟨(i 0).val / 2048, ht⟩ (1 : Fin 2) * 128 ≤ (i 1).val
      ∧ (i 1).val < win0_7.index ⟨(i 0).val / 2048, ht⟩ (1 : Fin 2) * 128 + 128
    rw [e1]; omega

/-- The result array after the run: the network on every row of the array of rows the region found. -/
theorem final (c : Dev nD) :
    (dats m 0 c).arrAt 7 cfg0.N = rowsOut (rowsIn m c) (w0In m c) (b0In m c) (w1In m c) (b1In m c) (w2In m c) (b2In m c) :=
  (dats m 0 c).arrAt_eq_of_cover 7 _ (fun t _ => flushed_eq m c t) covered

/-! ## The host operations around the region -/

/-- The array of rows is the input with its two leading axes merged. -/
theorem rowsIn_eq (c : Dev nD) :
    rowsIn m c = shapeCast S32768x1024 (m ((c : Thread nD τ).loc main_arg0)) Gen.shapeCasts_S8x4096x1024_S32768x1024 := by
  show StableHlo.after hostOps0 (fun b => m (c, b)) (Proc.devRef .tc main_v0) = _
  after_results
  rfl

/-- Each bias row is its [128] bias given a leading unit axis. -/
theorem b0In_eq (c : Dev nD) : b0In m c = shapeCast S1x128 (m ((c : Thread nD τ).loc main_arg2)) Gen.shapeCasts_S128_S1x128 := by
  show StableHlo.after hostOps0 (fun b => m (c, b)) (Proc.devRef .tc main_v1) = _
  after_results
  rfl
theorem b1In_eq (c : Dev nD) : b1In m c = shapeCast S1x128 (m ((c : Thread nD τ).loc main_arg4)) Gen.shapeCasts_S128_S1x128 := by
  show StableHlo.after hostOps0 (fun b => m (c, b)) (Proc.devRef .tc main_v2) = _
  after_results
  rfl
theorem b2In_eq (c : Dev nD) : b2In m c = shapeCast S1x128 (m ((c : Thread nD τ).loc main_arg6)) Gen.shapeCasts_S128_S1x128 := by
  show StableHlo.after hostOps0 (fun b => m (c, b)) (Proc.devRef .tc main_v3) = _
  after_results
  rfl

/-- The program's result is the result array with its row axis split back into [8, 4096]. -/
theorem tail_eq (c : Dev nD) : Pipeline.afterTail₀ cfgs (dats m) 0 (V0 m) [hostOps1] c main_v5
    = shapeCast S8x4096x128 (rowsOut (rowsIn m c) (w0In m c) (b0In m c) (w1In m c) (b1In m c) (w2In m c) (b2In m c))
        Gen.shapeCasts_S32768x128_S8x4096x128 := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = rowsOut (rowsIn m c) (w0In m c) (b0In m c) (w1In m c) (b1In m c) (w2In m c) (b2In m c) :=
    (Pipeline.withArrays_arr spec0 launch0.win.arr_inj c _ _ 7).trans (final m c)
  rw [hw]
  rfl

/-! ## Merging and splitting the row axis -/

/-- Row (b, s) of the input is row 4096·b + s of the array of rows. -/
def mergedRow (b : Fin 8) (s : Fin 4096) : Fin 32768 := ⟨4096 * b.val + s.val, by have := b.isLt; have := s.isLt; omega⟩

theorem mergeRows_apply {α : Type} (X : S8x4096x1024.Idx → α) (h : S8x4096x1024.ShapeCasts S32768x1024)
    (b : Fin 8) (s : Fin 4096) (k : Fin 1024) : shapeCast S32768x1024 X h (ix2 (mergedRow b s) k) = X (ix3 b s k) :=
  shapeCast_apply X h _ _ (by
    rw [Shape.rowMajor_val_two, Shape.rowMajor_val_three]
    show (b.val * 4096 + s.val) * 1024 + k.val = (4096 * b.val + s.val) * 1024 + k.val
    rw [Nat.mul_comm b.val 4096])

theorem splitRows_apply {α : Type} (Y : S32768x128.Idx → α) (h : S32768x128.ShapeCasts S8x4096x128)
    (b : Fin 8) (s : Fin 4096) (q : Fin 128) : shapeCast S8x4096x128 Y h (ix3 b s q) = Y (ix2 (mergedRow b s) q) :=
  shapeCast_apply Y h _ _ (by
    rw [Shape.rowMajor_val_two, Shape.rowMajor_val_three]
    show (4096 * b.val + s.val) * 128 + q.val = (b.val * 4096 + s.val) * 128 + q.val
    rw [Nat.mul_comm b.val 4096])

theorem rowsOut_apply (X : Vec Ideal S32768x1024 .f32) (W0 : Vec Ideal S1024x128 .f32) (B0 : Vec Ideal S1x128 .f32)
    (W1 : Vec Ideal S128x128 .f32) (B1 : Vec Ideal S1x128 .f32) (W2 : Vec Ideal S128x128 .f32) (B2 : Vec Ideal S1x128 .f32)
    (r : Fin 32768) (q : Fin 128) :
    rowsOut X W0 B0 W1 B1 W2 B2 (ix2 r q)
      = mlpRow (fun k => X (ix2 r k)) (fun k j => W0 (ix2 k j)) (fun j => B0 (ix2 (0 : Fin 1) j))
          (fun k j => W1 (ix2 k j)) (fun j => B1 (ix2 (0 : Fin 1) j)) (fun k j => W2 (ix2 k j)) (fun j => B2 (ix2 (0 : Fin 1) j)) q := rfl

/-- The kernel program's result, from the arguments: the network on every row of the input. -/
theorem result_eq (c : Dev nD) : Pipeline.afterTail₀ cfgs (dats m) 0 (V0 m) [hostOps1] c main_v5
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [tail_eq]
  funext i
  obtain ⟨b, s, j, rfl⟩ : ∃ (b : Fin 8) (s : Fin 4096) (j : Fin 128), i = ix3 b s j := ⟨i 0, i 1, i 2, eq_ix3 i⟩
  rw [splitRows_apply, rowsOut_apply, network_apply, rowsIn_eq, b0In_eq, b1In_eq, b2In_eq,
    show w0In m c = m ((c : Thread nD τ).loc main_arg1) from V_main_arg1 m c,
    show w1In m c = m ((c : Thread nD τ).loc main_arg3) from V_main_arg3 m c,
    show w2In m c = m ((c : Thread nD τ).loc main_arg5) from V_main_arg5 m c]
  simp only [mergeRows_apply, shapeCast_a_1a_apply]

/-! ## The run, read -/

/-- Every weakly fair execution of the kernel program terminates with its result at the network of the arguments and
    the arguments unchanged: the generated frame run, its post read at the result and at each argument. -/
theorem run : θ_run defs (onTc (τ := τ) (main (F := Ideal))) ⟨m, fun _ => 0, ρ⟩ fun r => ∀ c : Dev nD,
      r.2.mem ((c.tc : Thread nD τ).loc main_v5)
        = network (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.ArrayValue

end
-- ==== Proof.RefRow.lean ====
/-
  The reference's result read at an entry.

  The reference computes the same four steps on the whole [8, 4096, ·] arrays: a `dot_general` contracting the
  feature axis plus the bias broadcast over (batch, position); the mean of squares over the last axis through a
  `reduce`, a divide by 128 and the reciprocal root, broadcast back along the last axis; the logistic function
  spelt as `1 / (1 + e^(-x))`; and the positive part as a maximum with a zero splat. Read at entry (b, s, j) through
  the generated read-at-an-index lemmas, each step depends only on row (b, s), and the result is
  `Cert.DenseMlp.network` of the arguments.
-/
import proofs.«165573_j64132451664296_1_alg».proof.Proof.Gen.ReferenceIdeal.Read
import proofs.«165573_j64132451664296_1_alg».proof.Proof.NetSpec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read Cert.DenseMlp

variable (x0 : (⟨S8x4096x1024, .f32⟩ : BufTy).Contents (Elt Ideal)) (x1 : (⟨S1024x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-! ## The generated index maps at an entry given by its coordinates -/

theorem lidx0 (b : Fin 8) (s : Fin 4096) (j : Fin 128) (k : Fin 1024) : lidx_main_v0 (ix3 b s j) k = ix3 b s k :=
  funext fun a => Fin.ext (by match a with | ⟨0, _⟩ => rfl | ⟨1, _⟩ => rfl | ⟨2, _⟩ => rfl)
theorem ridx0 (b : Fin 8) (s : Fin 4096) (j : Fin 128) (k : Fin 1024) : ridx_main_v0 (ix3 b s j) k = ix2 k j :=
  funext fun a => Fin.ext (by match a with | ⟨0, _⟩ => rfl | ⟨1, _⟩ => rfl)
theorem bias0 (b : Fin 8) (s : Fin 4096) (j : Fin 128) : idx_main_v1 (idx_main_v2 (ix3 b s j)) = ix1 j :=
  funext fun a => Fin.ext (by match a with | ⟨0, _⟩ => rfl)
theorem lane5 (b : Fin 8) (s : Fin 4096) (k : Fin 128) : idx_main_v5 (ix2 b s) k = ix3 b s k :=
  funext fun a => Fin.ext (by match a with | ⟨0, _⟩ => rfl | ⟨1, _⟩ => rfl | ⟨2, _⟩ => rfl)
theorem keep6 (b : Fin 8) (s : Fin 4096) (j : Fin 128) : idx_main_v6 (idx_main_v12 (ix3 b s j)) = ix2 b s :=
  funext fun a => Fin.ext (by match a with | ⟨0, _⟩ => rfl | ⟨1, _⟩ => rfl)
theorem lidx14 (b : Fin 8) (s : Fin 4096) (j : Fin 128) (k : Fin 128) : lidx_main_v14 (ix3 b s j) k = ix3 b s k :=
  funext fun a => Fin.ext (by match a with | ⟨0, _⟩ => rfl | ⟨1, _⟩ => rfl | ⟨2, _⟩ => rfl)
theorem ridx14 (b : Fin 8) (s : Fin 4096) (j : Fin 128) (k : Fin 128) : ridx_main_v14 (ix3 b s j) k = ix2 k j :=
  funext fun a => Fin.ext (by match a with | ⟨0, _⟩ => rfl | ⟨1, _⟩ => rfl)
theorem bias15 (b : Fin 8) (s : Fin 4096) (j : Fin 128) : idx_main_v15 (idx_main_v16 (ix3 b s j)) = ix1 j :=
  funext fun a => Fin.ext (by match a with | ⟨0, _⟩ => rfl)
theorem lidx25 (b : Fin 8) (s : Fin 4096) (j : Fin 128) (k : Fin 128) : lidx_main_v25 (ix3 b s j) k = ix3 b s k :=
  funext fun a => Fin.ext (by match a with | ⟨0, _⟩ => rfl | ⟨1, _⟩ => rfl | ⟨2, _⟩ => rfl)
theorem ridx25 (b : Fin 8) (s : Fin 4096) (j : Fin 128) (k : Fin 128) : ridx_main_v25 (ix3 b s j) k = ix2 k j :=
  funext fun a => Fin.ext (by match a with | ⟨0, _⟩ => rfl | ⟨1, _⟩ => rfl)
theorem bias26 (b : Fin 8) (s : Fin 4096) (j : Fin 128) : idx_main_v26 (idx_main_v27 (ix3 b s j)) = ix1 j :=
  funext fun a => Fin.ext (by match a with | ⟨0, _⟩ => rfl)

/-! ## The four steps at entry (b, s, j) -/

/-- The input layer. -/
theorem input_apply (b : Fin 8) (s : Fin 4096) (j : Fin 128) :
    val_main_v3 (F := Ideal) x0 x1 x2 (ix3 b s j)
      = affine (fun k => x0 (ix3 b s k)) (fun k j => x1 (ix2 k j)) (fun j => x2 (ix1 j)) j := by
  rw [val_main_v3_apply, val_main_v0_apply, val_main_v2_apply, val_main_v1_apply, bias0]
  simp only [lidx0, ridx0]
  rfl

/-- The normalisation: the row of the input layer's result scaled by the reciprocal root of its mean square plus ε. -/
theorem norm_apply (b : Fin 8) (s : Fin 4096) (j : Fin 128) :
    val_main_v13 (F := Ideal) x0 x1 x2 (ix3 b s j)
      = rmsNorm (fun l => val_main_v3 (F := Ideal) x0 x1 x2 (ix3 b s l)) j := by
  rw [val_main_v13_apply, val_main_v12_apply, val_main_v11_apply, val_main_v10_apply, val_main_v8_apply, val_main_v6_apply,
    val_main_v7_apply, val_main_cst_0_apply, val_main_v9_apply, val_main_cst_1_apply, keep6, val_main_v5_apply, val_main_cst_apply]
  simp only [lane5, val_main_v4_apply]
  show val_main_v3 (F := Ideal) x0 x1 x2 (ix3 b s j) * Ideal.rsqrt (Ideal.div (Ideal.ofBits .f32 0x00000000#32
      + ∑ k : Fin 128, val_main_v3 (F := Ideal) x0 x1 x2 (ix3 b s k) * val_main_v3 (F := Ideal) x0 x1 x2 (ix3 b s k))
      (Ideal.ofBits .f32 0x43000000#32) + Ideal.ofBits .f32 0x358637BD#32) = _
  rw [Ideal.ofBits_zero_f32, zero_add]
  rfl

/-- The sigmoid block. -/
theorem sigmoid_apply (b : Fin 8) (s : Fin 4096) (j : Fin 128) :
    val_main_v24 (F := Ideal) x0 x1 x2 x3 x4 (ix3 b s j)
      = sigmoidBlock (fun l => val_main_v13 (F := Ideal) x0 x1 x2 (ix3 b s l)) (fun k j => x3 (ix2 k j)) (fun j => x4 (ix1 j)) j := by
  rw [val_main_v24_apply, val_main_v23_apply, val_main_v22_apply, val_main_cst_3_apply, val_main_v21_apply, val_main_v20_apply,
    val_main_cst_2_apply, val_main_v19_apply, val_main_v18_apply, val_main_v17_apply, val_main_v14_apply, val_main_v16_apply,
    val_main_v15_apply, bias15]
  simp only [lidx14, ridx14]
  show Ideal.div (Ideal.ofBits .f32 0x3F800000#32) (Ideal.ofBits .f32 0x3F800000#32
      + Ideal.exp (-((∑ k : Fin 128, val_main_v13 (F := Ideal) x0 x1 x2 (ix3 b s k) * x3 (ix2 k j)) + x4 (ix1 j))))
      + val_main_v13 (F := Ideal) x0 x1 x2 (ix3 b s j) = _
  rw [logistic_expanded]
  rfl

/-- The relu block. -/
theorem relu_apply (b : Fin 8) (s : Fin 4096) (j : Fin 128) :
    val_main_v30 (F := Ideal) x0 x1 x2 x3 x4 x5 x6 (ix3 b s j)
      = reluBlock (fun l => val_main_v24 (F := Ideal) x0 x1 x2 x3 x4 (ix3 b s l)) (fun k j => x5 (ix2 k j)) (fun j => x6 (ix1 j)) j := by
  rw [val_main_v30_apply, val_main_v29_apply, val_main_call0_v0_apply, val_main_call0_cst_apply, val_main_v28_apply,
    val_main_v25_apply, val_main_v27_apply, val_main_v26_apply, bias26]
  simp only [lidx25, ridx25]
  show max ((∑ k : Fin 128, val_main_v24 (F := Ideal) x0 x1 x2 x3 x4 (ix3 b s k) * x5 (ix2 k j)) + x6 (ix1 j))
      (Ideal.ofBits .f32 0x00000000#32) + val_main_v24 (F := Ideal) x0 x1 x2 x3 x4 (ix3 b s j) = _
  rw [max_zero_word]
  rfl

/-! ## The result -/

/-- The reference's result is the network on every row of its input. -/
theorem result_eq : val_main_v30 (F := Ideal) x0 x1 x2 x3 x4 x5 x6 = network x0 x1 x2 x3 x4 x5 x6 := by
  funext i
  obtain ⟨b, s, j, rfl⟩ : ∃ (b : Fin 8) (s : Fin 4096) (j : Fin 128), i = ix3 b s j := ⟨i 0, i 1, i 2, eq_ix3 i⟩
  rw [relu_apply, network_apply]
  simp only [sigmoid_apply, norm_apply, input_apply]
  rfl

end Cert.ReferenceIdeal.RefValue

end
-- ==== Proof.lean ====
/-
  A three-layer network applied row by row: the kernel against its jnp reference, over the extended reals.

  Each row x of 1024 features goes through
      h0 = x · W0 + b0,   h = h0 · rsqrt (mean (h0²) + ε),   a = logistic (h · W1 + b1) + h,   o = max (a · W2 + b2, 0) + a
  (`Cert.DenseMlp.mlpRow`, Proof/RowSpec.lean). The kernel merges the input's two leading axes into 32768 rows, runs a
  grid of 16 points over blocks of 2048 rows with the weights and biases staged whole, and splits the row axis of its
  result back; the reference applies the same four steps to the whole [8, 4096, ·] arrays.

  At the ideal instance the two agree term by term, with no use of finiteness: a change of float format in front of a
  matrix-unit product is the identity and the product into a zero accumulator is the same finite sum as the host's
  `dot_general`; the lane sum and the host's `reduce` are the same finite sum; both divide by the same f32 word for 128
  and add the same f32 word for ε; the kernel's logistic operation IS `1 / (1 + e^(-x))`, the expression the host
  spells out; and both positive parts are a maximum with zero. So both programs end with
  `Cert.DenseMlp.network` of the arguments (Proof/NetSpec.lean):
    · the kernel's stored block at an entry is `mlpRow` of that block row (Proof/KernelRow.lean), the 16 row blocks tile
      the result array, and the host reshapes around the region only rename rows (Proof/KernelArray.lean);
    · the reference's result at entry (b, s, j) is `mlpRow` of row (b, s) at feature j (Proof/RefRow.lean).
  The three frames are the generated ones (the reference's is its generated run with the result dropped), and the
  idealization rewrote nothing, so `preserves` is trivial.
-/
import proofs.«165573_j64132451664296_1_alg».proof.Defs
import proofs.«165573_j64132451664296_1_alg».proof.Proof.Gen.Kernel
import proofs.«165573_j64132451664296_1_alg».proof.Proof.Gen.Kernel.Skeleton
import proofs.«165573_j64132451664296_1_alg».proof.Proof.Gen.Kernel.Launch
import proofs.«165573_j64132451664296_1_alg».proof.Proof.Gen.Kernel.Points
import proofs.«165573_j64132451664296_1_alg».proof.Proof.Gen.Kernel.Frame
import proofs.«165573_j64132451664296_1_alg».proof.Proof.Gen.KernelIdeal
import proofs.«165573_j64132451664296_1_alg».proof.Proof.Gen.KernelIdeal.Skeleton
import proofs.«165573_j64132451664296_1_alg».proof.Proof.Gen.KernelIdeal.Launch
import proofs.«165573_j64132451664296_1_alg».proof.Proof.Gen.KernelIdeal.Points
import proofs.«165573_j64132451664296_1_alg».proof.Proof.Gen.KernelIdeal.Frame
import proofs.«165573_j64132451664296_1_alg».proof.Proof.Gen.ReferenceIdeal
import proofs.«165573_j64132451664296_1_alg».proof.Proof.Gen.Pre_finite_inputs
import proofs.«165573_j64132451664296_1_alg».proof.Proof.Gen.ReferenceIdeal.Run
import proofs.«165573_j64132451664296_1_alg».proof.Proof.Gen.ReferenceIdeal.Read
import proofs.«165573_j64132451664296_1_alg».proof.Proof.KernelArray
import proofs.«165573_j64132451664296_1_alg».proof.Proof.RefRow
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the network of the arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_eq]
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
